-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x128 : Shape := ⟨3, ![1, 4096, 128]⟩
abbrev S_ : Shape := ⟨0, ![]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel

variable [Facts]

def fn {F : FTy → Type} [FloatOps F] (main_arg0 : FVec F S1x4096x128 .f32) (main_arg1 : FVec F S1x4096x128 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x128 .f32 := Host.absf main_arg1
  let main_cst_0 : FVec F S_ .f32 := constant S_ .f32 0x7F800000#32
  let main_v5 : FVec F S1x4096x128 .f32 := broadcastInDim S1x4096x128 ![] bcast_S_S1x4096x128 main_cst_0
  let main_v6 : IVec S1x4096x128 1 := cmpf .olt main_v4 main_v5
  let main_c_1 : IVec S_ 1 := constantI S_ 1 1#1
  let main_v7 : IVec S_ 1 := (fun x v => Host.reduce IntOp.andi x v reducesTo_S1x4096x128_S_d0_1_2 h_S_) main_v6 main_c_1
  let main_v8 : IVec S_ 1 := andi main_v3 main_v7
  main_v8
-- ==== Kernel.lean ====
abbrev S1x4096x128 : Shape := ⟨3, ![1, 4096, 128]⟩
abbrev S4096x128 : Shape := ⟨2, ![4096, 128]⟩
abbrev S4096x4096 : Shape := ⟨2, ![4096, 4096]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1x4096x4096 : Shape := ⟨3, ![1, 4096, 4096]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S4096x128, .f32⟩
  | .hbm, ⟨3, _⟩ => ⟨S4096x128, .f32⟩
  | .hbm, ⟨4, _⟩ => ⟨S4096x4096, .f32⟩
  | .hbm, ⟨5, _⟩ => ⟨S1x4096x4096, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x4096x128_S4096x128 : S1x4096x128.ShapeCasts S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x4096_S1x4096x4096 : S4096x4096.ShapeCasts S1x4096x4096
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x4096x128 : Shape := ⟨3, ![1, 4096, 128]⟩
abbrev S_ : Shape := ⟨0, ![]⟩
abbrev S1x4096 : Shape := ⟨2, ![1, 4096]⟩
abbrev S1x4096x4096 : Shape := ⟨3, ![1, 4096, 4096]⟩
abbrev S1x4096x1 : Shape := ⟨3, ![1, 4096, 1]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S1x4096x128, .f32⟩
  | .hbm, ⟨3, _⟩ => ⟨S_, .f32⟩
  | .hbm, ⟨4, _⟩ => ⟨S1x4096, .f32⟩
  | .hbm, ⟨5, _⟩ => ⟨S1x4096x128, .f32⟩
  | .hbm, ⟨6, _⟩ => ⟨S_, .f32⟩
  | .hbm, ⟨7, _⟩ => ⟨S1x4096, .f32⟩
  | .hbm, ⟨8, _⟩ => ⟨S1x4096x4096, .f32⟩
  | .hbm, ⟨9, _⟩ => ⟨S1x4096x1, .f32⟩
  | .hbm, ⟨10, _⟩ => ⟨S1x1x4096, .f32⟩
  | .hbm, ⟨11, _⟩ => ⟨S1x4096x4096, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .f32⟩
  | .hbm, ⟨17, _⟩ => ⟨S1x4096x4096, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S1x4096x128_S1x4096_d2 : S1x4096x128.ReducesTo [2] S1x4096
  h_S_ : 0 < S_.numel
  bcast_S1x4096_S1x4096x1_0_1 : S1x4096.BroadcastsInDim S1x4096x1 (![0, 1] : Fin 2 → Fin S1x4096x1.rank)
  bcast_S1x4096_S1x1x4096_0_2 : S1x4096.BroadcastsInDim S1x1x4096 (![0, 2] : Fin 2 → Fin S1x1x4096.rank)
  bcast_S1x4096x1_S1x4096x4096_0_1_2 : S1x4096x1.BroadcastsInDim S1x4096x4096 (![0, 1, 2] : Fin 3 → Fin S1x4096x4096.rank)
  bcast_S1x1x4096_S1x4096x4096_0_1_2 : S1x1x4096.BroadcastsInDim S1x4096x4096 (![0, 1, 2] : Fin 3 → Fin S1x4096x4096.rank)
  bcast_S_S1x4096x4096 : S_.BroadcastsInDim S1x4096x4096 (![] : Fin 0 → Fin S1x4096x4096.rank)
  dot_S1x4096x128_S1x4096x128_S1x4096x4096_2_2_1_1_0_0_wf : DotDims.WF S1x4096x128 S1x4096x128 S1x4096x4096 [2] [2] [1] [1] [0] [0]

variable [Facts₀]

def dot_S1x4096x128_S1x4096x128_S1x4096x4096_2_2_1_1_0_0 : DotDims S1x4096x128 S1x4096x128 S1x4096x4096 where
  lhsContracting := [2]
  rhsContracting := [2]
  lhsNonContracting := [1]
  rhsNonContracting := [1]
  lhsBatch := [0]
  rhsBatch := [0]
  wf := dot_S1x4096x128_S1x4096x128_S1x4096x4096_2_2_1_1_0_0_wf

class Facts : Prop extends Facts₀ where

variable [Facts]
-- ==== Proof.TileValue.lean ====
/-
  One output tile of the cost matrix, read entry by entry.

  The kernel body loads a 1024 × 128 tile `a` of the first point set and a 1024 × 128 tile `b` of the second
  and stores the 1024 × 1024 tile whose entry `(p, q)` is

      ½ · (‖a_p‖² + ‖b_q‖²) − ⟨a_p, b_q⟩,

  the squared norms as lane sums of the squared rows, the inner products as one matrix product of the two
  tiles (contracting the feature axis of both) into a zero accumulator. Over the extended reals a change of
  float format is the identity, a lane sum from the zero word is the plain finite sum, and the product into a
  zero accumulator is the plain sum of products, so the entry is that expression literally, with the literal
  one half kept as its word.
-/
import proofs.«153264_j1047972020590_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## Two layout readings: a vector as a column, a column spread over the columns -/

section Layout
variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The three sums -/

/-- The lane sum of a tile's squared rows, at row `p`: the sum over the 128 features of the squared entry. -/
theorem rowSq_apply (a : FVec Ideal S1024x128 .f32) (p : Fin 1024) :
    multiReduction (F := Ideal) .add [1] S1024 (mulf a a) 0x00000000#32 reduces_S1024x128_S1024 (.inl rfl) rfl (ix1 p)
      = ∑ k : Fin 128, a (ix2 p k) * a (ix2 p k) := by
  refine (Ideal.multiReduction_add_single (mulf a a) 0x00000000#32 reduces_S1024x128_S1024 (.inl rfl) rfl (ix1 p)).trans ?_
  refine Finset.sum_congr rfl fun k _ => ?_
  have e : reduces_S1024x128_S1024.lift (ix1 p) k = ix2 p k :=
    funext fun d => Fin.ext (by match d with | ⟨0, _⟩ => rfl | ⟨1, _⟩ => rfl)
  rw [e]
  rfl

/-! ## The matrix product of the two tiles

Both operands are contracted along their feature axis, so the product's entry `(p, q)` pairs row `p` of the
left tile with row `q` of the right one. -/

theorem lhs_gram_0 (i : S1024x1024.Idx) (κ : dot_S1024x128_S1024x128_S1024x1024_1_1_0_0_n_n.contr.Idx) :
    (dot_S1024x128_S1024x128_S1024x1024_1_1_0_0_n_n.lhsIdx i κ 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_gram_1 (i : S1024x1024.Idx) (κ : dot_S1024x128_S1024x128_S1024x1024_1_1_0_0_n_n.contr.Idx) :
    (dot_S1024x128_S1024x128_S1024x1024_1_1_0_0_n_n.lhsIdx i κ 1).val = (κ ⟨0, by decide⟩).val :=
  dot_S1024x128_S1024x128_S1024x1024_1_1_0_0_n_n.lhsIdx_val_of_single rfl i κ
theorem rhs_gram_0 (i : S1024x1024.Idx) (κ : dot_S1024x128_S1024x128_S1024x1024_1_1_0_0_n_n.contr.Idx) :
    (dot_S1024x128_S1024x128_S1024x1024_1_1_0_0_n_n.rhsIdx i κ 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_gram_1 (i : S1024x1024.Idx) (κ : dot_S1024x128_S1024x128_S1024x1024_1_1_0_0_n_n.contr.Idx) :
    (dot_S1024x128_S1024x128_S1024x1024_1_1_0_0_n_n.rhsIdx i κ 1).val = (κ ⟨0, by decide⟩).val :=
  dot_S1024x128_S1024x128_S1024x1024_1_1_0_0_n_n.rhsIdx_val_of_single rfl i κ

/-- The product of two tiles into the zero accumulator, at `(p, q)`: the inner product of row `p` of the
    left tile and row `q` of the right one. -/
theorem gram_apply {φ₁ φ₂ : FTy} (a : FVec Ideal S1024x128 φ₁) (b : FVec Ideal S1024x128 φ₂) (p q : Fin 1024) :
    FloatOps.matmul dot_S1024x128_S1024x128_S1024x1024_1_1_0_0_n_n none a b (constant S1024x1024 .f32 0x00000000#32) (ix2 p q)
      = ∑ k : Fin 128, a (ix2 p k) * b (ix2 q k) := by
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun d => Fin.ext (by
    match d with
    | ⟨0, _⟩ => exact lhs_gram_0 _ _
    | ⟨1, _⟩ => exact (lhs_gram_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun d => Fin.ext (by
    match d with
    | ⟨0, _⟩ => exact rhs_gram_0 _ _
    | ⟨1, _⟩ => exact (rhs_gram_1 _ _).trans hk)
  rw [el, er]

/-! ## The tile -/

/-- THE TILE's entry `(p, q)`: one half of the sum of the two squared row norms, less the rows' inner product. -/
theorem tile_apply (a b : Vec Ideal S1024x128 .f32) (p q : Fin 1024) :
    k0_pay1 (F := Ideal) a b (ix2 p q)
      = Ideal.ofBits .f32 0x3F000000#32 * ((∑ k : Fin 128, a (ix2 p k) * a (ix2 p k)) + ∑ k : Fin 128, b (ix2 q k) * b (ix2 q k))
        - ∑ k : Fin 128, a (ix2 p k) * b (ix2 q k) := by
  unfold k0_pay1
  simp only [shapeCast_self]
  rw [subf_apply, mulf_apply, addf_apply, broadcast_apply, broadcastTo_a1_ab_apply, broadcastTo_1b_ab_apply,
    shapeCast_a_a1_apply, shapeCast_a_1a_apply, rowSq_apply, rowSq_apply]
  exact congrArg (Ideal.ofBits .f32 0x3F000000#32 * ((∑ k : Fin 128, a (ix2 p k) * a (ix2 p k)) + ∑ k : Fin 128, b (ix2 q k) * b (ix2 q k)) - ·)
    (gram_apply (truncf .bf16 a bitsLt_bf16_f32) (truncf .bf16 b bitsLt_bf16_f32) p q)

end Cert.KernelIdeal.Tile

end
-- ==== Proof.CostSpec.lean ====
/-
  The cost matrix, as one function of the two point sets.

  For point sets `x`, `y` of 4096 points with 128 features each, the matrix is

      cost (i, j) = ½ · (‖x_i‖² + ‖y_j‖²) − ⟨x_i, y_j⟩

  (the Gram expansion of ½ ‖x_i − y_j‖²), on the extended reals: the squared norms and the inner product are
  finite sums over the 128 features, the one half is the literal both programs carry, kept as its word. It is
  stated twice, on the flat [4096, 128] arrays a tiled computation works on and on the arrays with the leading
  batch axis of extent one, and the two are one function: adding or dropping the unit axis moves no entry.
-/
import Idealize.ShloMosaic.Lib.ValueIdx
import Idealize.ShloMosaic.Lib.ValueLayout
import Idealize.ShloMosaic.PureOps.Ideal

noncomputable section

namespace Cert.Cost

open Idealize.ShloMosaic Idealize.ShloMosaic.ValueIdx

/-- The cost matrix of two flat point sets: entry `(i, j)` from row `i` of `X` and row `j` of `Y`. -/
def costFlat (X Y : FVec Ideal ⟨2, ![4096, 128]⟩ .f32) : FVec Ideal ⟨2, ![4096, 4096]⟩ .f32 := fun i =>
  Ideal.ofBits .f32 0x3F000000#32 * ((∑ k : Fin 128, X (ix2 (i 0) k) * X (ix2 (i 0) k)) + ∑ k : Fin 128, Y (ix2 (i 1) k) * Y (ix2 (i 1) k))
    - ∑ k : Fin 128, X (ix2 (i 0) k) * Y (ix2 (i 1) k)

/-- An entry of the flat cost matrix depends on one row of each point set only: from any two tiles whose rows
    `p` and `q` are row `i 0` of `X` and row `i 1` of `Y`, the tile expression at `(p, q)` is the entry at `i`. -/
theorem costFlat_of_rows (X Y : FVec Ideal ⟨2, ![4096, 128]⟩ .f32) (a b : FVec Ideal ⟨2, ![1024, 128]⟩ .f32) (p q : Fin 1024)
    (i : (⟨2, ![4096, 4096]⟩ : Shape).Idx) (ha : ∀ k : Fin 128, a (ix2 p k) = X (ix2 (i 0) k)) (hb : ∀ k : Fin 128, b (ix2 q k) = Y (ix2 (i 1) k)) :
    Ideal.ofBits .f32 0x3F000000#32 * ((∑ k : Fin 128, a (ix2 p k) * a (ix2 p k)) + ∑ k : Fin 128, b (ix2 q k) * b (ix2 q k))
      - ∑ k : Fin 128, a (ix2 p k) * b (ix2 q k) = costFlat X Y i := by
  unfold costFlat
  simp only [ha, hb]

/-- The same with the batch axis of extent one in front: entry `(u, i, j)` from point `i` of `x` and point `j` of `y`. -/
def cost (x y : FVec Ideal ⟨3, ![1, 4096, 128]⟩ .f32) : FVec Ideal ⟨3, ![1, 4096, 4096]⟩ .f32 := fun i =>
  Ideal.ofBits .f32 0x3F000000#32 * ((∑ k : Fin 128, x (ix3 (i 0) (i 1) k) * x (ix3 (i 0) (i 1) k)) + ∑ k : Fin 128, y (ix3 (i 0) (i 2) k) * y (ix3 (i 0) (i 2) k))
    - ∑ k : Fin 128, x (ix3 (i 0) (i 1) k) * y (ix3 (i 0) (i 2) k)

/-- Flattening the point sets, taking the flat cost matrix and putting the batch axis back is the batched cost
    matrix: the unit axis carries no information, every coordinate on it is zero. -/
theorem cost_of_flat (x y : FVec Ideal ⟨3, ![1, 4096, 128]⟩ .f32)
    (hd : (⟨3, ![1, 4096, 128]⟩ : Shape).ShapeCasts ⟨2, ![4096, 128]⟩)
    (ha : (⟨2, ![4096, 4096]⟩ : Shape).ShapeCasts ⟨3, ![1, 4096, 4096]⟩) :
    shapeCast ⟨3, ![1, 4096, 4096]⟩ (costFlat (shapeCast ⟨2, ![4096, 128]⟩ x hd) (shapeCast ⟨2, ![4096, 128]⟩ y hd)) ha = cost x y := by
  funext i
  obtain ⟨u, r, s, rfl⟩ : ∃ (u : Fin 1) (r s : Fin 4096), i = ix3 u r s := ⟨i 0, i 1, i 2, eq_ix3 i⟩
  have hu : u = 0 := Fin.ext (by omega)
  subst hu
  rw [shapeCast_ab_1ab_apply]
  unfold costFlat cost
  simp only [shapeCast_1ab_ab_apply]

end Cert.Cost

end
-- ==== Proof.KernelValue.lean ====
/-
  The kernel computes the cost matrix.

  The flat point sets are cut into four row tiles of 1024 points each; grid point `(i, j)` is given tile `i` of
  the first set and tile `j` of the second and writes tile `(i, j)` of the flat 4096 × 4096 result. An entry of a
  tile depends only on one row of each input tile, and those are the rows of the flat point sets the entry's
  own position names, so every point writes a tile of ONE matrix, the flat cost matrix of the two point sets.
  The sixteen tiles cover the result. Around the tiled computation the batch axis of extent one is dropped
  from both point sets before and put back on the result after, which moves no entry.
-/
import proofs.«153264_j1047972020590_1_alg».proof.Proof.Gen.KernelIdeal.Frame
import proofs.«153264_j1047972020590_1_alg».proof.Proof.TileValue
import proofs.«153264_j1047972020590_1_alg».proof.Proof.CostSpec
import Idealize.ShloMosaic.Lib.Pipeline.Value
import Idealize.ShloMosaic.Lib.StableHlo.Run

noncomputable section

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The flat point sets as the tiled computation finds them, -/
abbrev X (c : Dev nD) : FVec Ideal S4096x128 .f32 := V m c main_v0
abbrev Y (c : Dev nD) : FVec Ideal S4096x128 .f32 := V m c main_v1
/-- and the two tiles grid point `t` is given. -/
abbrev xtile (c : Dev nD) (t : Fin cfg0.N) : Vec Ideal S1024x128 .f32 := iblk m c 0 t
abbrev ytile (c : Dev nD) (t : Fin cfg0.N) : Vec Ideal S1024x128 .f32 := iblk m c 1 t

/-- The first flat point set is the first argument with its batch axis dropped, -/
theorem X_eq (c : Dev nD) : X m c = shapeCast S4096x128 (m ((c : Thread nD τ).loc main_arg0)) shapeCasts_S1x4096x128_S4096x128 := by
  show StableHlo.after hostOps0 (fun b => m (c, b)) (Proc.devRef .tc main_v0) = _
  after_results
  rfl
/-- and the second the second argument likewise. -/
theorem Y_eq (c : Dev nD) : Y m c = shapeCast S4096x128 (m ((c : Thread nD τ).loc main_arg1)) shapeCasts_S1x4096x128_S4096x128 := by
  show StableHlo.after hostOps0 (fun b => m (c, b)) (Proc.devRef .tc main_v1) = _
  after_results
  rfl

/-! ## Which tiles a grid point is given, and which it writes -/

/-- Decided over the sixteen points: the first input's row tile is the output tile's row, the second input's row
    tile is the output tile's column, neither input is cut along the features, and the output's tile indices
    stay below four. -/
theorem tile_indices : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every one of the sixteen output tiles is some point's. -/
theorem tile_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- Row `p` of the first tile at point `t` is row `r` of the first flat point set, `r` being `p` rows into the
    output tile's row range. -/
theorem xtile_apply (c : Dev nD) (t : Fin cfg0.N) (p : Fin 1024) (k : Fin 128) (r : Fin 4096)
    (hr : r.val = win0_2.index t (0 : Fin 2) * 1024 + p.val) : xtile m c t (ix2 p k) = X m c (ix2 r k) := by
  obtain ⟨e0, e1, -, -, -, -⟩ := tile_indices t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 1024 + 1 * p.val = r.val; omega
  | ⟨1, _⟩ => show win0_0.index t (1 : Fin 2) * 128 + 1 * k.val = k.val; omega

/-- Row `q` of the second tile at point `t` is row `s` of the second flat point set, `s` being `q` rows into the
    output tile's column range. -/
theorem ytile_apply (c : Dev nD) (t : Fin cfg0.N) (q : Fin 1024) (k : Fin 128) (s : Fin 4096)
    (hs : s.val = win0_2.index t (1 : Fin 2) * 1024 + q.val) : ytile m c t (ix2 q k) = Y m c (ix2 s k) := by
  obtain ⟨-, -, e2, e3, -, -⟩ := tile_indices t
  show V m c main_v1 (((cfg0.win 1).blk t).view.emb (ix2 q k)) = V m c main_v1 (ix2 s k)
  refine congrArg (V m c main_v1) (funext fun a => Fin.ext ?_)
  match a with
  | ⟨0, _⟩ => show win0_1.index t (0 : Fin 2) * 1024 + 1 * q.val = s.val; omega
  | ⟨1, _⟩ => show win0_1.index t (1 : Fin 2) * 128 + 1 * k.val = k.val; omega

/-! ## Every point writes a tile of the flat cost matrix -/

/-- WHAT POINT `t` WRITES BACK is tile `t` of the flat cost matrix of the two flat point sets. -/
theorem flushed_eq (c : Dev nD) (t : Fin cfg0.N) :
    (dats m 0 c).flushed 2 t = ((cfg0.win 2).blk t).view.read (Elt Ideal) (Cert.Cost.costFlat (X m c) (Y m c)) := by
  show (cfg0.win 2).cut (grid0.coords t) ((dats m 0 c).after 2 t) = _
  rw [after0_2]
  unfold out0_2
  rw [View.canon_unit_zero hz]
  simp only [View.ld_unit_zero (S := S1024x128) hz]
  funext j
  obtain ⟨p, q, rfl⟩ : ∃ (p q : Fin 1024), j = ix2 p q := ⟨j 0, j 1, eq_ix2 j⟩
  show k0_pay1 (F := Ideal) (xtile m c t) (ytile m c t) (ix2 p q) = Cert.Cost.costFlat (X m c) (Y m c) (((cfg0.win 2).blk t).view.emb (ix2 p q))
  refine (Tile.tile_apply (xtile m c t) (ytile m c t) p q).trans ?_
  refine Cert.Cost.costFlat_of_rows (X m c) (Y m c) (xtile m c t) (ytile m c t) p q _
    (fun k => xtile_apply m c t p k _ ?_) (fun k => ytile_apply m c t q k _ ?_)
  · show win0_2.index t (0 : Fin 2) * 1024 + 1 * p.val = win0_2.index t (0 : Fin 2) * 1024 + p.val; omega
  · show win0_2.index t (1 : Fin 2) * 1024 + 1 * q.val = win0_2.index t (1 : Fin 2) * 1024 + q.val; omega

/-! ## The tiles cover the result -/

/-- A position of the result is in point `t`'s tile iff each coordinate is in the tile's range on its axis. -/
theorem mem_tile (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every position is in the tile whose indices are its coordinates' quotients by 1024. -/
theorem covered (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := tile_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE FLAT RESULT after the tiled computation is the flat cost matrix. -/
theorem flat_result (c : Dev nD) : (dats m 0 c).arrAt 2 cfg0.N = Cert.Cost.costFlat (X m c) (Y m c) :=
  (dats m 0 c).arrAt_eq_of_cover 2 (Cert.Cost.costFlat (X m c) (Y m c)) (fun t _ => flushed_eq m c t) covered

/-! ## The batch axis put back, and the run -/

/-- THE RESULT: the flat cost matrix with the batch axis put back is the cost matrix of the arguments. -/
theorem result_eq (c : Dev nD) :
    Pipeline.afterTail₀ cfgs (dats m) 0 (V0 m) [hostOps1] c main_v3
      = Cert.Cost.cost (m ((c : Thread nD τ).loc main_arg0)) (m ((c : Thread nD τ).loc main_arg1)) := by
  unfold Pipeline.afterTail₀
  refine Eq.trans ?_ (Cert.Cost.cost_of_flat (m ((c : Thread nD τ).loc main_arg0)) (m ((c : Thread nD τ).loc main_arg1))
    shapeCasts_S1x4096x128_S4096x128 shapeCasts_S4096x4096_S1x4096x4096)
  rw [← X_eq m c, ← Y_eq m c, ← flat_result m c,
    ← Pipeline.withArrays_arr spec0 launch0.win.arr_inj c (V0 m c) (fun w => (dats m 0 c).arrAt w cfg0.N) 2]
  show StableHlo.after hostOps1 _ (Proc.devRef .tc main_v3) = _
  after_results
  rfl

/-- The run, read: the result at the cost matrix of the arguments, the arguments unchanged. -/
theorem run : θ_run defs (onTc (τ := τ) (main (F := Ideal))) ⟨m, fun _ => 0, ρ⟩ fun r => ∀ c : Dev nD,
      r.2.mem ((c : Thread nD τ).loc main_v3) = Cert.Cost.cost (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Tiles

end
-- ==== Proof.RefValue.lean ====
/-
  The reference computes the cost matrix.

  Read one operation at a time, the reference squares each point set entry by entry and sums over the feature
  axis from a zero initial value (the squared norms, one per point), takes the batched product of the two point
  sets contracting the feature axis (the inner products), spreads the norms of the first set along the rows and
  those of the second along the columns, adds them, scales by the literal one half and subtracts the inner
  products. At an entry `(u, i, j)` every spreading step only forgets or repeats a coordinate, so the entry is
  ½ · (‖x_i‖² + ‖y_j‖²) − ⟨x_i, y_j⟩ once the zero initial values are dropped: the specification's entry.
-/
import proofs.«153264_j1047972020590_1_alg».proof.Proof.Gen.ReferenceIdeal.Read
import proofs.«153264_j1047972020590_1_alg».proof.Proof.CostSpec

noncomputable section

namespace Cert.ReferenceIdeal.RefValue

open Cert.ReferenceIdeal Cert.ReferenceIdeal.Gen Cert.ReferenceIdeal.Read Idealize.ShloMosaic Idealize.ShloMosaic.ValueIdx

/-- The squared norm the row-spread chain reads at `(u, i, j)` sums point `i` of the first set. -/
theorem rowNorm_idx (i : S1x4096x4096.Idx) (k : Fin 128) :
    idx_main_v1 (idx_main_v5 (idx_main_v7 i)) k = ix3 (i 0) (i 1) k :=
  funext fun a => Fin.ext (by
    match a with
    | ⟨0, _⟩ => show 0 = (i 0).val; have h : (i 0).val < 1 := (i 0).isLt; omega
    | ⟨1, _⟩ => rfl
    | ⟨2, _⟩ => rfl)

/-- The squared norm the column-spread chain reads at `(u, i, j)` sums point `j` of the second set. -/
theorem colNorm_idx (i : S1x4096x4096.Idx) (k : Fin 128) :
    idx_main_v3 (idx_main_v6 (idx_main_v8 i)) k = ix3 (i 0) (i 2) k :=
  funext fun a => Fin.ext (by
    match a with
    | ⟨0, _⟩ => show 0 = (i 0).val; have h : (i 0).val < 1 := (i 0).isLt; omega
    | ⟨1, _⟩ => rfl
    | ⟨2, _⟩ => rfl)

/-- The product's left factor at `(u, i, j)` and feature `k` is point `i` of the first set, -/
theorem prodL_idx (i : S1x4096x4096.Idx) (k : Fin 128) : lidx_main_v4 i k = ix3 (i 0) (i 1) k :=
  funext fun a => Fin.ext (by match a with | ⟨0, _⟩ => rfl | ⟨1, _⟩ => rfl | ⟨2, _⟩ => rfl)

/-- and its right factor point `j` of the second. -/
theorem prodR_idx (i : S1x4096x4096.Idx) (k : Fin 128) : ridx_main_v4 i k = ix3 (i 0) (i 2) k :=
  funext fun a => Fin.ext (by match a with | ⟨0, _⟩ => rfl | ⟨1, _⟩ => rfl | ⟨2, _⟩ => rfl)

/-- THE REFERENCE's result, as a function of the two point sets, is the cost matrix. -/
theorem ref_is_cost (x y : FVec Ideal S1x4096x128 .f32) : val_main_v12 (F := Ideal) x y = Cert.Cost.cost x y := by
  funext i
  rw [val_main_v12_apply, val_main_v11_apply, val_main_v10_apply, val_main_cst_1_apply, val_main_v9_apply,
    val_main_v7_apply, val_main_v5_apply, val_main_v1_apply, val_main_v8_apply, val_main_v6_apply, val_main_v3_apply,
    val_main_v4_apply, val_main_cst_apply, val_main_cst_0_apply]
  simp only [val_main_v0_apply, val_main_v2_apply, rowNorm_idx, colNorm_idx, prodL_idx, prodR_idx,
    Ideal.mulf_def, Ideal.addf_def, Ideal.subf_def, Ideal.ofBits_def, Ideal.ofBits_zero_f32, zero_add]
  rfl

end Cert.ReferenceIdeal.RefValue

end
-- ==== Proof.lean ====
/-
  The cost matrix of two point sets, costs (0, i, j) = ½ ‖x_i − y_j‖², computed through the Gram expansion
  ½ · (‖x_i‖² + ‖y_j‖²) − ⟨x_i, y_j⟩ by a tiled kernel and by a whole-array reference.

  Over the extended reals both programs compute that expression literally, entry by entry, with the same literal
  one half and the operations in the same order: the kernel per 1024 × 1024 tile from one row tile of each point
  set (squared norms as lane sums, the inner products as one matrix product of the two tiles, whose narrower
  operand format is the identity here), the reference on the whole arrays (sums over the feature axis, one
  batched product, the norms spread along rows and columns). No law of arithmetic is needed to join them, so
  the finiteness of the inputs is never used; what is proved is that every tile is a tile of one matrix, that
  the sixteen tiles cover it, and that dropping and restoring the batch axis of extent one moves no entry
  (Proof/TileValue.lean, Proof/KernelValue.lean), and that the reference's operations compose to the same
  matrix (Proof/RefValue.lean); the matrix itself is Proof/CostSpec.lean.

  The three programs run, without a fault, leaving their arguments as they found them: the kernel's two by
  its tiled run, the reference's by its straight-line run. The idealized kernel is the kernel's own text read over
  the extended reals, no operation rewritten, so there is nothing to preserve.
-/
import proofs.«153264_j1047972020590_1_alg».proof.Defs
import proofs.«153264_j1047972020590_1_alg».proof.Proof.Gen.Kernel
import proofs.«153264_j1047972020590_1_alg».proof.Proof.Gen.Kernel.Skeleton
import proofs.«153264_j1047972020590_1_alg».proof.Proof.Gen.Kernel.Launch
import proofs.«153264_j1047972020590_1_alg».proof.Proof.Gen.Kernel.Points
import proofs.«153264_j1047972020590_1_alg».proof.Proof.Gen.Kernel.Frame
import proofs.«153264_j1047972020590_1_alg».proof.Proof.Gen.KernelIdeal
import proofs.«153264_j1047972020590_1_alg».proof.Proof.Gen.KernelIdeal.Skeleton
import proofs.«153264_j1047972020590_1_alg».proof.Proof.Gen.KernelIdeal.Launch
import proofs.«153264_j1047972020590_1_alg».proof.Proof.Gen.KernelIdeal.Points
import proofs.«153264_j1047972020590_1_alg».proof.Proof.Gen.KernelIdeal.Frame
import proofs.«153264_j1047972020590_1_alg».proof.Proof.Gen.ReferenceIdeal
import proofs.«153264_j1047972020590_1_alg».proof.Proof.Gen.Pre_finite_inputs
import proofs.«153264_j1047972020590_1_alg».proof.Proof.Gen.ReferenceIdeal.Run
import proofs.«153264_j1047972020590_1_alg».proof.Proof.Gen.ReferenceIdeal.Read
import proofs.«153264_j1047972020590_1_alg».proof.Proof.KernelValue
import proofs.«153264_j1047972020590_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the cost matrix of the point sets they started from, and those agree. -/
theorem algebraic : Cert.algebraic_KernelIdeal_ReferenceIdeal := by
  intro m ρ m' ρ' _ hagree
  refine ⟨fun c => Cert.Cost.cost (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.ref_is_cost, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
